-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x64 : Shape := ⟨2, ![1024, 64]⟩
abbrev S1024x1 : Shape := ⟨2, ![1024, 1]⟩
abbrev S1x1024 : Shape := ⟨2, ![1, 1024]⟩
abbrev S1024x1024 : Shape := ⟨2, ![1024, 1024]⟩
abbrev S64x1024 : Shape := ⟨2, ![64, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  transposes_S1024x64_p1_0_S64x1024 : S1024x64.Transposes [1, 0] S64x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.Spec.lean ====
/-
  Pairwise squared Euclidean distances between the rows of two 8192 × 64 matrices, by the expansion
  ‖a − b‖² = ‖a‖² + ‖b‖² − 2 a·b, clamped below at zero — as ONE function of the two arrays, index by index, on
  the extended reals. The squared length of a row is the host's sum: the zero word plus the sum over the 64
  columns of the entry times itself; the cross term is the plain sum over the columns of the products. The
  entry at (n, k) is  max ((‖xₙ‖² + ‖yₖ‖²) − 2 · xₙ·yₖ, 0), with the operations in exactly that order, so no
  algebraic law (and no finiteness of the inputs) is needed to compare two programs that both compute it.

  Beside the function: the host's column of squared lengths (a row sum of the squares, laid out as an
  [8192, 1] column) and its transpose (the [1, 8192] row), read at coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.SqDist

open Idealize.ShloMosaic Idealize.ShloMosaic.ValueIdx

/-- The points: 8192 rows of 64 coordinates. -/
abbrev Pts : Shape := ⟨2, ![8192, 64]⟩
/-- One number per point. -/
abbrev Len : Shape := ⟨1, ![8192]⟩
/-- The same as a column, -/
abbrev ColS : Shape := ⟨2, ![8192, 1]⟩
/-- and as a row. -/
abbrev RowS : Shape := ⟨2, ![1, 8192]⟩
/-- All pairs of points. -/
abbrev Pairs : Shape := ⟨2, ![8192, 8192]⟩
/-- A scalar. -/
abbrev Scal : Shape := ⟨0, ![]⟩

/-- The squared length of point `n`: the zero word plus the sum of its squared coordinates. -/
def sqn (x : Pts.Idx → EReal) (n : Fin 8192) : EReal :=
  Ideal.ofBits .f32 0x00000000#32 + ∑ d : Fin 64, x (ix2 n d) * x (ix2 n d)

/-- The inner product of point `n` of `x` with point `k` of `y`. -/
def cross (x y : Pts.Idx → EReal) (n k : Fin 8192) : EReal :=
  ∑ d : Fin 64, x (ix2 n d) * y (ix2 k d)

/-- The clamped squared distance of every pair: at (n, k), max ((‖xₙ‖² + ‖yₖ‖²) − 2 · xₙ·yₖ, 0). -/
def dist2 (x y : Pts.Idx → EReal) : Pairs.Idx → EReal := fun i =>
  max (sqn x (i 0) + sqn y (i 1) - Ideal.ofBits .f32 0x40000000#32 * cross x y (i 0) (i 1))
    (Ideal.ofBits .f32 0x00000000#32)

/-- The host's sum of the squares over the coordinate axis, into the zero scalar, read at point `n`, is that
    point's squared length. -/
theorem sumsq_apply (x : FVec Ideal Pts .f32) (hr : Pts.ReducesTo [1] Len) (hu : 0 < Scal.numel) (n : Fin 8192) :
    Host.reduceAdd (mulf x x) (constant (F := Ideal) Scal .f32 0x00000000#32) hr hu (ix1 n) = sqn x n := by
  have h : Pts.Reduces [1] Len := by decide
  simp only [Host.reduceAdd, Ideal.hostReduceAdd_def]
  rw [Ideal.hostReduceAdd_single hr h]
  unfold sqn
  refine congrArg (_ + ·) (Finset.sum_congr rfl fun d _ => ?_)
  have e : h.lift (ix1 n) d = ix2 n d :=
    funext fun a => Fin.ext (by match a with | ⟨0, _⟩ => rfl | ⟨1, _⟩ => rfl)
  show x (h.lift (ix1 n) d) * x (h.lift (ix1 n) d) = _
  rw [e]
  rfl

/-- The same laid out as a column: entry (n, 0) of the [8192, 1] column is point `n`'s squared length. -/
theorem sqcol_apply (x : FVec Ideal Pts .f32) (hr : Pts.ReducesTo [1] Len) (hu : 0 < Scal.numel)
    (hb : Len.BroadcastsInDim ColS (![0] : Fin 1 → Fin ColS.rank)) (n : Fin 8192) (u : Fin 1) :
    broadcastInDim ColS ![0] hb (Host.reduceAdd (mulf x x) (constant (F := Ideal) Scal .f32 0x00000000#32) hr hu) (ix2 n u)
      = sqn x n := by
  rw [broadcastInDim_apply _ hb _ (ix2 n u) (ix1 n) (fun a => match a with
    | ⟨0, _⟩ => by show n.val = if (8192 : Nat) = 1 then 0 else n.val; rw [if_neg (by decide)])]
  exact sumsq_apply x hr hu n

/-- And transposed into a row: entry (0, k) of the [1, 8192] row is point `k`'s squared length. -/
theorem sqrow_apply (x : FVec Ideal Pts .f32) (hr : Pts.ReducesTo [1] Len) (hu : 0 < Scal.numel)
    (hb : Len.BroadcastsInDim ColS (![0] : Fin 1 → Fin ColS.rank)) (ht : ColS.Transposes [1, 0] RowS)
    (u : Fin 1) (k : Fin 8192) :
    transpose RowS [1, 0] (broadcastInDim ColS ![0] hb
        (Host.reduceAdd (mulf x x) (constant (F := Ideal) Scal .f32 0x00000000#32) hr hu)) ht (ix2 u k)
      = sqn x k := by
  rw [ValueIdx.transpose_ix2_apply]
  exact sqcol_apply x hr hu hb k u

end Cert.SqDist

end
-- ==== Proof.Ref.lean ====
/-
  The reference computes the clamped squared distance of every pair of points: read one operation at a time, its
  last stage at index (n, k) is
    max (((0 + ∑ d, x[n,d]·x[n,d]) + (0 + ∑ d, y[k,d]·y[k,d])) − 2 · ∑ d, x[n,d]·y[k,d], 0),
  the column of squared lengths broadcast along the pairs' second axis, the row (the column transposed) along
  the first, and the host's dot product contracting the coordinate axis of both operands. The composed index
  functions of the stages are the coordinate pairs (n, d) and (k, d).
-/
import proofs.«160419_j20658792694342_1_alg».proof.Proof.Gen.ReferenceIdeal.Read
import proofs.«160419_j20658792694342_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.SqDist

/-- The reference's last stage is the clamped squared distance of every pair. -/
theorem result_eq (x y : (⟨S8192x64, .f32⟩ : BufTy).Contents (Elt Ideal)) :
    val_main_v15 (F := Ideal) x y = dist2 x y := by
  funext i
  have e1 : ∀ d : Fin 64, idx_main_v1 (idx_main_v2 (idx_main_v8 i)) d = ix2 (i 0) d := fun d =>
    funext fun a => Fin.ext (by match a with | ⟨0, _⟩ => rfl | ⟨1, _⟩ => rfl)
  have e2 : ∀ d : Fin 64, idx_main_v4 (idx_main_v5 (idx_main_v6 (idx_main_v9 i))) d = ix2 (i 1) d := fun d =>
    funext fun a => Fin.ext (by match a with | ⟨0, _⟩ => rfl | ⟨1, _⟩ => rfl)
  have el : ∀ d : Fin 64, lidx_main_v7 i d = ix2 (i 0) d := fun d =>
    funext fun a => Fin.ext (by match a with | ⟨0, _⟩ => rfl | ⟨1, _⟩ => rfl)
  have er : ∀ d : Fin 64, ridx_main_v7 i d = ix2 (i 1) d := fun d =>
    funext fun a => Fin.ext (by match a with | ⟨0, _⟩ => rfl | ⟨1, _⟩ => rfl)
  unfold dist2 sqn cross
  rw [val_main_v15_apply, val_main_v13_apply, val_main_v14_apply, val_main_cst_2_apply, val_main_v10_apply,
    val_main_v12_apply, val_main_v11_apply, val_main_cst_1_apply, val_main_v7_apply, val_main_v8_apply,
    val_main_v9_apply, val_main_v2_apply, val_main_v6_apply, val_main_v5_apply, val_main_v1_apply,
    val_main_v4_apply, val_main_cst_apply, val_main_cst_0_apply]
  simp only [val_main_v0_apply, val_main_v3_apply, e1, e2, el, er, Ideal.ofBits_def, Ideal.addf_def,
    Ideal.subf_def, Ideal.mulf_def, Ideal.maximumf_def]
  rfl

end Cert.ReferenceIdeal.RefValue

end
-- ==== Proof.LibKeepdims.lean ====
/-
  Layout operations of a `keepdims` row reduction read at an index given by coordinates — the column forms beside the
  library's row forms: a vector `[a]` cast to the column `[a, 1]`, a column `[a, 1]` broadcast along a new minor
  extent to `[a, b]`, and a lane sum of an `[a, b]` array over its minor axis read at a row as the sum over that row
  (at the exact instance, into the zero accumulator). General in the extents; nothing here mentions a program.
-/
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(i, u)`, the operand at `i`, whatever the unit coordinate `u`:
    the two row-major positions are `i` and `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`: the unit axis reads `0`,
    the row axis is kept (also when `a = 1`, where the only row is row `0`). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance a float lane sum of an `[a, b]` array over its minor axis, into the zero accumulator, read at row
    `i` is the sum over the `b` entries of that row. (The accumulator's side condition is typed as a printed program
    carries it, an equation between the two zero words.) -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ d : Fin b, src (ix2 i d) :=
  (Ideal.multiReduction_add_single src 0x00000000#32 h hφ hacc (ix1 i)).trans
    (Finset.sum_congr rfl fun d _ => congrArg src (funext fun ax => Fin.ext (by
      match ax with
      | ⟨0, _⟩ => rfl
      | ⟨1, _⟩ => rfl)))

end Cert.LibKeepdims
-- ==== Proof.Payload.lean ====
/-
  What the kernel body stores, read at an index. From its four loaded blocks — a [1024, 64] block `a` of the first
  matrix, a [1024, 64] block `b` of the second, a [1024, 1] column `s` and a [1, 1024] row `r` of squared lengths —
  the body forms the [1024, 1024] tile whose entry (p, q) is
    max ((s[p,0] + r[0,q]) − 2 · ∑ d, a[p,d]·b[q,d], 0):
  the column and the row broadcast to the tile, and the matrix product of `a` with the transpose of `b` into a zero
  accumulator, which contracts the 64 coordinates. Narrowing the two blocks to a shorter float format changes
  nothing on the extended reals.
-/
import proofs.«160419_j20658792694342_1_alg».proof.Proof.Gen.KernelIdeal.Skeleton
import proofs.«160419_j20658792694342_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The matrix product's operand indices, axis by axis -/

/-- The left operand's row is the tile's row. -/
theorem lhs_mm_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
/-- The left operand's column is the contracted coordinate. -/
theorem lhs_mm_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
/-- The right operand's row is the contracted coordinate. -/
theorem rhs_mm_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
/-- The right operand's column is the tile's column. -/
theorem rhs_mm_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The product of `a` with `b` transposed, into the zero accumulator, at (p, q): the inner product of row `p` of `a`
    with row `q` of `b`. -/
theorem mm_apply (a b : FVec Ideal S1024x64 .bf16) (ht : S1024x64.Transposes [1, 0] S64x1024) (p q : Fin 1024) :
    matmul (F := Ideal) dot_S1024x64_S64x1024_S1024x1024_1_0_0_1_n_n none a (transpose S64x1024 [1, 0] b ht) (constant (F := Ideal) S1024x1024 .f32 0x00000000#32) (ix2 p q)
      = ∑ d : Fin 64, a (ix2 p d) * b (ix2 q d) := by
  show FloatOps.matmul (F := Ideal) dot_S1024x64_S64x1024_S1024x1024_1_0_0_1_n_n none a (transpose S64x1024 [1, 0] b ht) (constant (F := Ideal) S1024x1024 .f32 0x00000000#32) (ix2 p q) = _
  rw [Ideal.matmul_constant_zero_apply, ← Equiv.sum_comp (ValueIdx.contrEquiv1 dot_S1024x64_S64x1024_S1024x1024_1_0_0_1_n_n 64 rfl rfl).symm]
  refine Finset.sum_congr rfl fun d _ => ?_
  have hd := ValueIdx.contrEquiv1_symm_val dot_S1024x64_S64x1024_S1024x1024_1_0_0_1_n_n 64 rfl rfl d
  have el : dot_S1024x64_S64x1024_S1024x1024_1_0_0_1_n_n.lhsIdx (ix2 p q) ((ValueIdx.contrEquiv1 dot_S1024x64_S64x1024_S1024x1024_1_0_0_1_n_n 64 rfl rfl).symm d) = ix2 p d := funext fun ax => Fin.ext (by
    match ax with
    | ⟨0, _⟩ => exact lhs_mm_0 _ _
    | ⟨1, _⟩ => exact (lhs_mm_1 _ _).trans hd)
  have er : dot_S1024x64_S64x1024_S1024x1024_1_0_0_1_n_n.rhsIdx (ix2 p q) ((ValueIdx.contrEquiv1 dot_S1024x64_S64x1024_S1024x1024_1_0_0_1_n_n 64 rfl rfl).symm d) = ix2 d q := funext fun ax => Fin.ext (by
    match ax with
    | ⟨0, _⟩ => exact (rhs_mm_0 _ _).trans hd
    | ⟨1, _⟩ => exact rhs_mm_1 _ _)
  rw [el, er, ValueIdx.transpose_ix2_apply]

/-! ## The two broadcasts -/

/-- The column of squared lengths, broadcast to the tile, reads its row's entry. -/
theorem col_apply (s : FVec Ideal S1024x1 .f32) (hc : S1024x1.ShapeCasts S1024x1) (hb : S1024x1.Broadcasts S1024x1024)
    (p q : Fin 1024) : broadcastTo S1024x1024 (shapeCast S1024x1 s hc) hb (ix2 p q) = s (ix2 p (0 : Fin 1)) := by
  rw [shapeCast_self]
  exact Cert.LibKeepdims.broadcastTo_a1_ab_apply s hb p q

/-- The row of squared lengths, broadcast to the tile, reads its column's entry. -/
theorem row_apply (r : FVec Ideal S1x1024 .f32) (hc : S1x1024.ShapeCasts S1x1024) (hb : S1x1024.Broadcasts S1024x1024)
    (p q : Fin 1024) : broadcastTo S1024x1024 (shapeCast S1x1024 r hc) hb (ix2 p q) = r (ix2 (0 : Fin 1) q) := by
  rw [shapeCast_self]
  exact ValueIdx.broadcastTo_1b_ab_apply r hb p q

/-! ## The stored tile -/

/-- The body's stored value at (p, q). -/
theorem pay_apply (a b : Vec Ideal S1024x64 .f32) (s : Vec Ideal S1024x1 .f32) (r : Vec Ideal S1x1024 .f32) (p q : Fin 1024) :
    k0_pay1 (F := Ideal) a b s r (ix2 p q)
      = max (s (ix2 p (0 : Fin 1)) + r (ix2 (0 : Fin 1) q) - Ideal.ofBits .f32 0x40000000#32 * ∑ d : Fin 64, a (ix2 p d) * b (ix2 q d))
          (Ideal.ofBits .f32 0x00000000#32) := by
  unfold k0_pay1
  show max (broadcastTo S1024x1024 (shapeCast S1024x1 s _) _ (ix2 p q) + broadcastTo S1024x1024 (shapeCast S1x1024 r _) _ (ix2 p q)
      - Ideal.ofBits .f32 0x40000000#32 * matmul (F := Ideal) dot_S1024x64_S64x1024_S1024x1024_1_0_0_1_n_n none (truncf (F := Ideal) .bf16 a _) (transpose S64x1024 [1, 0] (truncf (F := Ideal) .bf16 b _) _) (constant (F := Ideal) S1024x1024 .f32 0x00000000#32) (ix2 p q))
    (Ideal.ofBits .f32 0x00000000#32) = _
  rw [col_apply, row_apply, mm_apply]
  rfl

end Cert.KernelIdeal.Body

end
-- ==== Proof.Entry.lean ====
/-
  What the region finds in the two arrays the host computed before it: the [8192, 1] column whose entry (n, 0) is
  the squared length of point `n` of the first matrix, and the [1, 8192] row whose entry (0, k) is the squared
  length of point `k` of the second — each the host's sum of the squares over the coordinate axis, laid out as a
  column, the second then transposed.
-/
import proofs.«160419_j20658792694342_1_alg».proof.Proof.Gen.KernelIdeal.Frame
import proofs.«160419_j20658792694342_1_alg».proof.Proof.Spec
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.SqDist

variable (m : (ℓ : Loc nD τ sig) → Buf (Elt Ideal) ℓ)

/-- The first matrix as launched, -/
abbrev xs (c : Dev nD) : FVec Ideal S8192x64 .f32 := m ((c : Thread nD τ).loc main_arg0)
/-- and the second. -/
abbrev ys (c : Dev nD) : FVec Ideal S8192x64 .f32 := m ((c : Thread nD τ).loc main_arg1)

/-- The column the region finds: the host's row sums of the first matrix's squares, as a column. -/
theorem col_entry (c : Dev nD) : (V m c main_call0_v2 : S8192x1.Idx → EReal)
    = broadcastInDim S8192x1 ![0] bcast_S8192_S8192x1_0
        (Host.reduceAdd (mulf (xs m c) (xs m c)) (constant (F := Ideal) S_ .f32 0x00000000#32) reducesTo_S8192x64_S8192_d1 h_S_) := by
  dsimp only [Gen.V, Gen.hostOps0]; after_results; rfl

/-- The row the region finds: the same of the second matrix, transposed. -/
theorem row_entry (c : Dev nD) : (V m c main_call0_v6 : S1x8192.Idx → EReal)
    = transpose S1x8192 [1, 0] (broadcastInDim S8192x1 ![0] bcast_S8192_S8192x1_0
        (Host.reduceAdd (mulf (ys m c) (ys m c)) (constant (F := Ideal) S_ .f32 0x00000000#32) reducesTo_S8192x64_S8192_d1 h_S_))
        transposes_S8192x1_S1x8192_1_0 := by
  dsimp only [Gen.V, Gen.hostOps0]; after_results; rfl

/-- Entry (n, 0) of the column is the squared length of point `n` of the first matrix. -/
theorem col_entry_apply (c : Dev nD) (n : Fin 8192) (u : Fin 1) :
    (V m c main_call0_v2 : S8192x1.Idx → EReal) (ix2 n u) = sqn (xs m c) n := by
  rw [col_entry]
  exact sqcol_apply (xs m c) _ _ _ n u

/-- Entry (0, k) of the row is the squared length of point `k` of the second matrix. -/
theorem row_entry_apply (c : Dev nD) (u : Fin 1) (k : Fin 8192) :
    (V m c main_call0_v6 : S1x8192.Idx → EReal) (ix2 u k) = sqn (ys m c) k := by
  rw [row_entry]
  exact sqrow_apply (ys m c) _ _ _ _ u k

end Cert.KernelIdeal.Entry

end
-- ==== Proof.Whole.lean ====
/-
  From the tiles to the whole array. The output is cut into an 8 × 8 grid of [1024, 1024] tiles; at the grid point
  with block indices (I, J) the body reads rows 1024·I … of the first matrix, rows 1024·J … of the second, the
  matching 1024 entries of the column and of the row of squared lengths, and writes tile (I, J). Entry (p, q) of that
  tile is therefore the clamped squared distance of points 1024·I + p and 1024·J + q: the tile is the restriction of
  ONE function of the two matrices to its rectangle. Every index of the output lies in the tile of the point
  (row / 1024, column / 1024), so after the run the array is that function everywhere.
-/
import proofs.«160419_j20658792694342_1_alg».proof.Proof.Gen.KernelIdeal.Value
import proofs.«160419_j20658792694342_1_alg».proof.Proof.Payload
import proofs.«160419_j20658792694342_1_alg».proof.Proof.Entry

noncomputable section

namespace Cert.KernelIdeal.Whole

open Cert.KernelIdeal Cert.KernelIdeal.Gen Cert.KernelIdeal.Entry Idealize.ShloMosaic Idealize.ShloMosaic.TcCoe Idealize.SL.Sem
open Idealize.ShloMosaic.ValueIdx Cert.SqDist
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block indices at a grid point, decided over the 64 points: the first matrix and the column move with the
    tile's row index, the second matrix and the row with its column index, every other block index is 0, and the
    tile's indices stay below 8. -/
theorem tile_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every tile is some point's. -/
theorem tile_onto : ∀ (I J : Fin 8), ∃ t : Fin cfg0.N, win0_4.index t = ![I.val, J.val] :=
  (by decide +kernel : ∀ (I J : Fin 8), ∃ t : Fin grid0.N, win0_4.index t = ![I.val, J.val])

/-! ## The four input blocks, read at coordinates -/

/-- Row `p` of the first matrix's block is row `n = 1024·I + p` of the matrix. -/
theorem blk_x (c : Dev nD) (t : Fin cfg0.N) (p : Fin 1024) (d : Fin 64) (n : Fin 8192)
    (hn : n.val = win0_4.index t (0 : Fin 2) * 1024 + p.val) :
    (iblk m c 0 t : S1024x64.Idx → EReal) (ix2 p d) = xs m c (ix2 n d) := by
  obtain ⟨e0, e1, -⟩ := tile_indices t
  show (V m c main_arg0 : S8192x64.Idx → EReal) (((cfg0.win 0).blk t).view.emb (ix2 p d)) = _
  rw [V_main_arg0]
  refine congrArg (xs m c) (funext fun a => Fin.ext ?_)
  match a with
  | ⟨0, _⟩ => show win0_0.index t (0 : Fin 2) * 1024 + 1 * p.val = n.val; omega
  | ⟨1, _⟩ => show win0_0.index t (1 : Fin 2) * 64 + 1 * d.val = d.val; omega

/-- Row `q` of the second matrix's block is row `k = 1024·J + q` of the matrix. -/
theorem blk_y (c : Dev nD) (t : Fin cfg0.N) (q : Fin 1024) (d : Fin 64) (k : Fin 8192)
    (hk : k.val = win0_4.index t (1 : Fin 2) * 1024 + q.val) :
    (iblk m c 1 t : S1024x64.Idx → EReal) (ix2 q d) = ys m c (ix2 k d) := by
  obtain ⟨-, -, e2, e3, -⟩ := tile_indices t
  show (V m c main_arg1 : S8192x64.Idx → EReal) (((cfg0.win 1).blk t).view.emb (ix2 q d)) = _
  rw [V_main_arg1]
  refine congrArg (ys m c) (funext fun a => Fin.ext ?_)
  match a with
  | ⟨0, _⟩ => show win0_1.index t (0 : Fin 2) * 1024 + 1 * q.val = k.val; omega
  | ⟨1, _⟩ => show win0_1.index t (1 : Fin 2) * 64 + 1 * d.val = d.val; omega

/-- Entry `p` of the column's block is the squared length of point `n = 1024·I + p` of the first matrix. -/
theorem blk_col (c : Dev nD) (t : Fin cfg0.N) (p : Fin 1024) (n : Fin 8192)
    (hn : n.val = win0_4.index t (0 : Fin 2) * 1024 + p.val) :
    (iblk m c 2 t : S1024x1.Idx → EReal) (ix2 p (0 : Fin 1)) = sqn (xs m c) n := by
  obtain ⟨-, -, -, -, e4, e5, -⟩ := tile_indices t
  show (V m c main_call0_v2 : S8192x1.Idx → EReal) (((cfg0.win 2).blk t).view.emb (ix2 p (0 : Fin 1))) = _
  have e : ((cfg0.win 2).blk t).view.emb (ix2 p (0 : Fin 1)) = (ix2 n (0 : Fin 1) : S8192x1.Idx) :=
    funext fun a => Fin.ext (by
      match a with
      | ⟨0, _⟩ => show win0_2.index t (0 : Fin 2) * 1024 + 1 * p.val = n.val; omega
      | ⟨1, _⟩ => show win0_2.index t (1 : Fin 2) * 1 + 1 * 0 = 0; omega)
  rw [e]
  exact col_entry_apply m c n 0

/-- Entry `q` of the row's block is the squared length of point `k = 1024·J + q` of the second matrix. -/
theorem blk_row (c : Dev nD) (t : Fin cfg0.N) (q : Fin 1024) (k : Fin 8192)
    (hk : k.val = win0_4.index t (1 : Fin 2) * 1024 + q.val) :
    (iblk m c 3 t : S1x1024.Idx → EReal) (ix2 (0 : Fin 1) q) = sqn (ys m c) k := by
  obtain ⟨-, -, -, -, -, -, e6, e7, -⟩ := tile_indices t
  show (V m c main_call0_v6 : S1x8192.Idx → EReal) (((cfg0.win 3).blk t).view.emb (ix2 (0 : Fin 1) q)) = _
  have e : ((cfg0.win 3).blk t).view.emb (ix2 (0 : Fin 1) q) = (ix2 (0 : Fin 1) k : S1x8192.Idx) :=
    funext fun a => Fin.ext (by
      match a with
      | ⟨0, _⟩ => show win0_3.index t (0 : Fin 2) * 1 + 1 * 0 = 0; omega
      | ⟨1, _⟩ => show win0_3.index t (1 : Fin 2) * 1024 + 1 * q.val = k.val; omega)
  rw [e]
  exact row_entry_apply m c 0 k

/-! ## What a point writes back -/

/-- The body's tile at point `t`, entry by entry, is the clamped squared distance at the entry's place in the
    whole array. -/
theorem tile_eq (c : Dev nD) (t : Fin cfg0.N) (j : S1024x1024.Idx) :
    k0_pay1 (F := Ideal) (iblk m c 0 t) (iblk m c 1 t) (iblk m c 2 t) (iblk m c 3 t) j
      = dist2 (xs m c) (ys m c) (((cfg0.win 4).blk t).view.emb j) := by
  obtain ⟨p, q, rfl⟩ : ∃ (p q : Fin 1024), j = ix2 p q := ⟨j 0, j 1, eq_ix2 j⟩
  refine (Body.pay_apply (iblk m c 0 t) (iblk m c 1 t) (iblk m c 2 t) (iblk m c 3 t) p q).trans ?_
  have hn : ((((cfg0.win 4).blk t).view.emb (ix2 p q) : S8192x8192.Idx) 0).val = win0_4.index t (0 : Fin 2) * 1024 + p.val := by
    show win0_4.index t (0 : Fin 2) * 1024 + 1 * p.val = _; omega
  have hk : ((((cfg0.win 4).blk t).view.emb (ix2 p q) : S8192x8192.Idx) 1).val = win0_4.index t (1 : Fin 2) * 1024 + q.val := by
    show win0_4.index t (1 : Fin 2) * 1024 + 1 * q.val = _; omega
  unfold dist2 cross
  rw [blk_col m c t p _ hn, blk_row m c t q _ hk]
  simp only [blk_x m c t p _ _ hn, blk_y m c t q _ _ hk]

/-- What point `t` writes back is tile `t` of the clamped squared distances. -/
theorem flushed_eq (c : Dev nD) (t : Fin cfg0.N) :
    (dats m 0 c).flushed 4 t = ((cfg0.win 4).blk t).view.read (Elt Ideal) (dist2 (xs m c) (ys m c)) := by
  rw [Value.flushed4]
  unfold out0_4
  rw [View.canon_unit_zero origin]
  simp only [View.ld_unit_zero (S := S1024x64) origin, View.ld_unit_zero (S := S1024x1) origin, View.ld_unit_zero (S := S1x1024) origin]
  funext j
  exact tile_eq m c t j

/-! ## The cover -/

/-- An index of the array is in point `t`'s tile iff each coordinate is in the tile's range on its axis. -/
theorem mem_tile (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v0).slice (win0_4.rect t)).set ↔ _
  rw [View.set_slice_whole, Rect.mem_set_unit]
  exact Iff.rfl

/-- Every index of the array is in the tile of the point (row / 1024, column / 1024), which writes back. -/
theorem covered (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := tile_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_tile]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-! ## The array after the run -/

/-- After the run the output array is the clamped squared distance of every pair of points. -/
theorem final (c : Dev nD) : (dats m 0 c).arrAt 4 cfg0.N = dist2 (xs m c) (ys m c) :=
  (dats m 0 c).arrAt_eq_of_cover 4 (dist2 (xs m c) (ys m c)) (fun t _ => flushed_eq m c t) covered

/-- The kernel's run: every weakly fair execution ends with the output array at the clamped squared distances of
    the two matrices as launched, and the matrices unchanged. -/
theorem run : θ_run defs (onTc (τ := τ) (main (F := Ideal))) ⟨m, fun _ => 0, ρ⟩ fun r => ∀ c : Dev nD,
      r.2.mem ((c : Thread nD τ).loc main_v0) = dist2 (xs m c) (ys m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.lean ====
/-
  Pairwise squared Euclidean distances, tiled, against the plain formula. Both programs compute, for two 8192 × 64
  matrices x and y, the 8192 × 8192 array whose entry (n, k) is
      max ((‖xₙ‖² + ‖yₖ‖²) − 2 · xₙ·yₖ, 0),
  with ‖·‖² the host's sum of squares over the 64 coordinates (into a zero) and xₙ·yₖ the sum of the 64 products.
  The reference does it with whole-array operations: the two vectors of squared lengths broadcast as a column and
  as a row, one dot product contracting the coordinate axis of both matrices, a subtraction and a maximum. The
  kernel computes the same two vectors on the host the same way, then cuts the output into an 8 × 8 grid of
  1024 × 1024 tiles; each tile is the matrix product of a row block of x with the transpose of a row block of y into
  a zero accumulator (the blocks first narrowed to a shorter float format, which on the extended reals is the
  identity), combined with the matching pieces of the column and the row in the same order of operations.
  On the extended reals a tile is the restriction of that one function to its rectangle, the tiles cover the array,
  and the operations agree one for one, so no algebraic law — and no finiteness of the inputs — is used.

  The modules: Spec (the function, and the host's column and row of squared lengths read at coordinates), Ref (the
  reference's last stage is the function), Payload (the body's tile at an entry), Entry (the column and the row as
  the region finds them), Whole (block reads, what a point writes back, the cover, the array after the run).
  The idealization rewrote nothing, so `preserves` has no conjunct.
-/
import proofs.«160419_j20658792694342_1_alg».proof.Defs
import proofs.«160419_j20658792694342_1_alg».proof.Proof.Gen.Kernel
import proofs.«160419_j20658792694342_1_alg».proof.Proof.Gen.Kernel.Skeleton
import proofs.«160419_j20658792694342_1_alg».proof.Proof.Gen.Kernel.Launch
import proofs.«160419_j20658792694342_1_alg».proof.Proof.Gen.Kernel.Points
import proofs.«160419_j20658792694342_1_alg».proof.Proof.Gen.Kernel.Frame
import proofs.«160419_j20658792694342_1_alg».proof.Proof.Gen.KernelIdeal
import proofs.«160419_j20658792694342_1_alg».proof.Proof.Gen.KernelIdeal.Skeleton
import proofs.«160419_j20658792694342_1_alg».proof.Proof.Gen.KernelIdeal.Launch
import proofs.«160419_j20658792694342_1_alg».proof.Proof.Gen.KernelIdeal.Points
import proofs.«160419_j20658792694342_1_alg».proof.Proof.Gen.KernelIdeal.Frame
import proofs.«160419_j20658792694342_1_alg».proof.Proof.Gen.ReferenceIdeal
import proofs.«160419_j20658792694342_1_alg».proof.Proof.Gen.Pre_finite_inputs
import proofs.«160419_j20658792694342_1_alg».proof.Proof.Gen.KernelIdeal.Value
import proofs.«160419_j20658792694342_1_alg».proof.Proof.Gen.ReferenceIdeal.Run
import proofs.«160419_j20658792694342_1_alg».proof.Proof.Gen.ReferenceIdeal.Read
import proofs.«160419_j20658792694342_1_alg».proof.Proof.Ref
import proofs.«160419_j20658792694342_1_alg».proof.Proof.Whole
import Idealize.ShloMosaic.Adequacy
import Idealize.ShloMosaic.Init

noncomputable section

namespace Cert.Proof

open Idealize.ShloMosaic Idealize.ShloMosaic.TcCoe Idealize.SL.Sem

/-- The kernel as printed runs and leaves its two matrices as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two matrices, the kernel's output array and the reference's result are both the
    clamped squared distance of every pair of points. -/
theorem algebraic : Cert.algebraic_KernelIdeal_ReferenceIdeal := by
  intro m ρ m' ρ' _ hagree
  refine ⟨fun c => Cert.SqDist.dist2 (Cert.KernelIdeal.Entry.xs m c) (Cert.KernelIdeal.Entry.ys m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v15_eq _ _).trans (Cert.ReferenceIdeal.RefValue.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
